-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x524288 : Shape := ⟨2, ![256, 524288]⟩
abbrev S524288 : Shape := ⟨1, ![524288]⟩
abbrev S_ : Shape := ⟨0, ![]⟩

class Facts : Prop where
  bcast_S_S256x524288 : S_.BroadcastsInDim S256x524288 (![] : Fin 0 → Fin S256x524288.rank)
  reducesTo_S256x524288_S_d0_1 : S256x524288.ReducesTo [0, 1] S_
  h_S_ : 0 < S_.numel
  bcast_S_S524288 : S_.BroadcastsInDim S524288 (![] : Fin 0 → Fin S524288.rank)
  reducesTo_S524288_S_d0 : S524288.ReducesTo [0] S_

variable [Facts]

def fn {F : FTy → Type} [FloatOps F] (main_arg0 : FVec F S256x524288 .f32) (main_arg1 : FVec F S524288 .f32) (main_arg2 : IVec S524288 32) : IVec S_ 1 :=
  let main_v0 : FVec F S256x524288 .f32 := Host.absf main_arg0
  let main_cst : FVec F S_ .f32 := constant S_ .f32 0x7F800000#32
  let main_v1 : FVec F S256x524288 .f32 := broadcastInDim S256x524288 ![] bcast_S_S256x524288 main_cst
  let main_v2 : IVec S256x524288 1 := cmpf .olt main_v0 main_v1
  let main_c : IVec S_ 1 := constantI S_ 1 1#1
  let main_v3 : IVec S_ 1 := (fun x v => Host.reduce IntOp.andi x v reducesTo_S256x524288_S_d0_1 h_S_) main_v2 main_c
  let main_v4 : FVec F S524288 .f32 := Host.absf main_arg1
  let main_cst_0 : FVec F S_ .f32 := constant S_ .f32 0x7F800000#32
  let main_v5 : FVec F S524288 .f32 := broadcastInDim S524288 ![] bcast_S_S524288 main_cst_0
  let main_v6 : IVec S524288 1 := cmpf .olt main_v4 main_v5
  let main_c_1 : IVec S_ 1 := constantI S_ 1 1#1
  let main_v7 : IVec S_ 1 := (fun x v => Host.reduce IntOp.andi x v reducesTo_S524288_S_d0 h_S_) main_v6 main_c_1
  let main_v8 : IVec S_ 1 := andi main_v3 main_v7
  main_v8
-- ==== Kernel.lean ====
abbrev S256x524288 : Shape := ⟨2, ![256, 524288]⟩
abbrev S524288 : Shape := ⟨1, ![524288]⟩
abbrev S1x524288 : Shape := ⟨2, ![1, 524288]⟩
abbrev S524288x1 : Shape := ⟨2, ![524288, 1]⟩
abbrev S256x16384 : Shape := ⟨2, ![256, 16384]⟩
abbrev S256x4096 : Shape := ⟨2, ![256, 4096]⟩
abbrev S4096x1 : Shape := ⟨2, ![4096, 1]⟩
abbrev S256x2048 : Shape := ⟨2, ![256, 2048]⟩
abbrev S1x2048 : Shape := ⟨2, ![1, 2048]⟩
abbrev S2048x1 : Shape := ⟨2, ![2048, 1]⟩
abbrev S2048x2048 : Shape := ⟨2, ![2048, 2048]⟩

abbrev nBuf : Space → Nat
  | .hbm => 9
  | .vmem => 6
  | .smem => 0
  | _ => 0

abbrev bufTy : (tb : Table) → Fin (tcTables nBuf tb) → BufTy
  | .hbm, ⟨0, _⟩ => ⟨S256x524288, .f32⟩
  | .hbm, ⟨1, _⟩ => ⟨S524288, .f32⟩
  | .hbm, ⟨2, _⟩ => ⟨S524288, .i32⟩
  | .hbm, ⟨3, _⟩ => ⟨S1x524288, .f32⟩
  | .hbm, ⟨4, _⟩ => ⟨S256x524288, .f32⟩
  | .hbm, ⟨5, _⟩ => ⟨S256x524288, .f32⟩
  | .hbm, ⟨6, _⟩ => ⟨S256x524288, .bf16⟩
  | .hbm, ⟨7, _⟩ => ⟨S524288x1, .i32⟩
  | .hbm, ⟨8, _⟩ => ⟨S256x16384, .f32⟩
  | .local _ .vmem, ⟨0, _⟩ => ⟨S256x4096, .bf16⟩
  | .local _ .vmem, ⟨1, _⟩ => ⟨S256x4096, .bf16⟩
  | .local _ .vmem, ⟨2, _⟩ => ⟨S4096x1, .i32⟩
  | .local _ .vmem, ⟨3, _⟩ => ⟨S4096x1, .i32⟩
  | .local _ .vmem, ⟨4, _⟩ => ⟨S256x2048, .f32⟩
  | .local _ .vmem, ⟨5, _⟩ => ⟨S256x2048, .f32⟩
  | _, _ => ⟨S256x524288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 128], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bcast_S524288_S1x524288_1 : S524288.BroadcastsInDim S1x524288 (![1] : Fin 1 → Fin S1x524288.rank)
  bcast_S1x524288_S256x524288_0_1 : S1x524288.BroadcastsInDim S256x524288 (![0, 1] : Fin 2 → Fin S256x524288.rank)
  bitsLt_bf16_f32 : FTy.bits .bf16 < FTy.bits .f32
  shapeCasts_S524288_S524288x1 : S524288.ShapeCasts S524288x1
  inb_S256x2048_S256x2048_0_0 : ∀ a, (![0, 0] : Fin 2 → Nat) a + S256x2048.size a ≤ S256x2048.size a
  h_S256x2048 : 0 < S256x2048.numel
  iota_S1x2048_d1_w32 : S1x2048.Iotas .tc 32 [1]
  inb_S256x4096_S256x2048_0_0 : ∀ a, (![0, 0] : Fin 2 → Nat) a + S256x2048.size a ≤ S256x4096.size a
  shapeCasts_S256x2048_S256x2048 : S256x2048.ShapeCasts S256x2048
  inb_S4096x1_S2048x1_0_0 : ∀ a, (![0, 0] : Fin 2 → Nat) a + S2048x1.size a ≤ S4096x1.size a
  h_S2048x1 : 0 < S2048x1.numel
  shapeCasts_S2048x1_S2048x1 : S2048x1.ShapeCasts S2048x1
  broadcasts_S2048x1_S2048x2048 : S2048x1.Broadcasts S2048x2048
  broadcasts_S1x2048_S2048x2048 : S1x2048.Broadcasts S2048x2048
  natLt_1_32 : 1 < 32
  inb_S256x4096_S256x2048_0_2048 : ∀ a, (![0, 2048] : Fin 2 → Nat) a + S256x2048.size a ≤ S256x4096.size a
  inb_S4096x1_S2048x1_2048_0 : ∀ a, (![2048, 0] : Fin 2 → Nat) a + S2048x1.size a ≤ S4096x1.size a
  dot_S256x2048_S2048x2048_S256x2048_1_0_0_1_n_n_wf : DotDims.WF S256x2048 S2048x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S256x524288.size a
  hwx0_0 : ∀ i : grid0.Coords, EltTy.bits .bf16 = 32 ∨ (Rect.block (s := S256x524288) S256x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x1.size a ≤ S524288x1.size a
  hwx0_1 : ∀ i : grid0.Coords, EltTy.bits .i32 = 32 ∨ (Rect.block (s := S524288x1) S4096x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S256x16384.size a
  hwx0_2 : ∀ i : grid0.Coords, EltTy.bits .f32 = 32 ∨ (Rect.block (s := S256x16384) S256x2048.size (cc0_transform_2 i) (hinb0_2 i)).WholeWords (EltTy.packing .f32)

variable [Facts₀]

def dot_S256x2048_S2048x2048_S256x2048_1_0_0_1_n_n : DotDims S256x2048 S2048x2048 S256x2048 where
  lhsContracting := [1]
  rhsContracting := [0]
  lhsNonContracting := [0]
  rhsNonContracting := [1]
  lhsBatch := []
  rhsBatch := []
  wf := dot_S256x2048_S2048x2048_S256x2048_1_0_0_1_n_n_wf

abbrev win0_0 : Pipeline.Window sig grid0 :=
  Pipeline.Window.ofSpec (Memref.whole main_v3) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S4096x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S256x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S256x524288 : Shape := ⟨2, ![256, 524288]⟩
abbrev S524288 : Shape := ⟨1, ![524288]⟩
abbrev S1x524288 : Shape := ⟨2, ![1, 524288]⟩
abbrev S524288x256 : Shape := ⟨2, ![524288, 256]⟩
abbrev S_ : Shape := ⟨0, ![]⟩
abbrev S16384x256 : Shape := ⟨2, ![16384, 256]⟩
abbrev S524288x1 : Shape := ⟨2, ![524288, 1]⟩
abbrev S256x16384 : Shape := ⟨2, ![256, 16384]⟩

abbrev nBuf : Space → Nat
  | .hbm => 12
  | .vmem => 0
  | .smem => 0
  | _ => 0

abbrev bufTy : (tb : Table) → Fin (tcTables nBuf tb) → BufTy
  | .hbm, ⟨0, _⟩ => ⟨S256x524288, .f32⟩
  | .hbm, ⟨1, _⟩ => ⟨S524288, .f32⟩
  | .hbm, ⟨2, _⟩ => ⟨S524288, .i32⟩
  | .hbm, ⟨3, _⟩ => ⟨S1x524288, .f32⟩
  | .hbm, ⟨4, _⟩ => ⟨S256x524288, .f32⟩
  | .hbm, ⟨5, _⟩ => ⟨S256x524288, .f32⟩
  | .hbm, ⟨6, _⟩ => ⟨S524288x256, .f32⟩
  | .hbm, ⟨7, _⟩ => ⟨S_, .f32⟩
  | .hbm, ⟨8, _⟩ => ⟨S16384x256, .f32⟩
  | .hbm, ⟨9, _⟩ => ⟨S524288x1, .i32⟩
  | .hbm, ⟨10, _⟩ => ⟨S16384x256, .f32⟩
  | .hbm, ⟨11, _⟩ => ⟨S256x16384, .f32⟩
  | _, _ => ⟨S256x524288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  bcast_S524288_S1x524288_1 : S524288.BroadcastsInDim S1x524288 (![1] : Fin 1 → Fin S1x524288.rank)
  bcast_S1x524288_S256x524288_0_1 : S1x524288.BroadcastsInDim S256x524288 (![0, 1] : Fin 2 → Fin S256x524288.rank)
  transposes_S256x524288_S524288x256_1_0 : S256x524288.Transposes [1, 0] S524288x256
  bcast_S_S16384x256 : S_.BroadcastsInDim S16384x256 (![] : Fin 0 → Fin S16384x256.rank)
  bcast_S524288_S524288x1_0 : S524288.BroadcastsInDim S524288x1 (![0] : Fin 1 → Fin S524288x1.rank)
  transposes_S16384x256_S256x16384_1_0 : S16384x256.Transposes [1, 0] S256x16384
  scatter_S16384x256_S524288x1_S524288x256_1_0_0_1_wf : ScatterDims.WF S16384x256 S524288x1 S524288x256 [1] [0] [0] 1

variable [Facts₀]

def scatter_S16384x256_S524288x1_S524288x256_1_0_0_1 : ScatterDims S16384x256 S524288x1 S524288x256 where
  updateWindowDims := [1]
  insertedWindowDims := [0]
  scatterDimsToOperandDims := [0]
  indexVectorDim := 1
  wf := scatter_S16384x256_S524288x1_S524288x256_1_0_0_1_wf

class Facts : Prop extends Facts₀ where

variable [Facts]
-- ==== Proof.HashSum.lean ====
/-
  Feature hashing as one sum. For a product array `XW[b, i]` (the sign-scaled features) and bin words `MK[i]`,
  the result at batch row `b` and bin `j` is the sum over ALL features `i` of `XW[b, i]` times the indicator
  that feature `i`'s bin word is `j`'s word: `out[b, j] = ∑ i, XW[b, i] · [MK[i] = j]`. On the extended reals
  `a · 0 = 0` and `a · 1 = a` for every `a`, infinite ones too, and sums are commutative and associative, so this one
  sum is both "add the features whose bin is j" (a scatter-add) and "multiply by a one-hot matrix" (a matrix product),
  cut into feature chunks in any way. This module states the sum over a natural-number feature position (zero beyond
  the last feature), so that chunks are ranges, and proves the chunk law and the word facts both readings need.
-/
import Idealize.ShloMosaic.PureOps.Ideal
import Idealize.ShloMosaic.Lib.ValueIdx
import Mathlib.Data.Fintype.BigOperators
import Mathlib.Algebra.BigOperators.Group.Finset.Basic

noncomputable section

open scoped BigOperators

namespace Cert.HashSum

open Idealize.ShloMosaic Idealize.ShloMosaic.ValueIdx

/-- The indicator that two bin words agree, as an extended real: `1` or `0`. -/
def hit (w v : BitVec 32) : EReal := if w = v then 1 else 0

/-- Multiplying by the indicator keeps the factor or kills it — at every extended real. -/
theorem mul_hit (a : EReal) (w v : BitVec 32) : a * hit w v = if w = v then a else 0 := by
  unfold hit
  split
  · exact mul_one a
  · exact mul_zero a

/-- A one-hot entry made by comparing two words, widening the bit to a word and converting that word as a signed
    integer is the indicator: the word is `1` or `0`. -/
theorem sitofp_cmpi_eq (a b : BitVec 32) :
    FloatOps.sitofp (F := Ideal) .f32 ((IntOp.cmpi .eq a b).setWidth 32) = hit a b := by
  show ((((IntOp.cmpi .eq a b).setWidth 32).toInt : ℝ) : EReal) = _
  unfold hit IntOp.cmpi
  by_cases h : a = b
  · subst h; simp
  · have hb : (a == b) = false := by simp [h]
    simp [hb, h]

/-- Column `q` of bin tile `o` (tiles of 2048 bins) carries the word of bin `2048·o + q`: word arithmetic is
    arithmetic modulo `2^32`. -/
theorem binWord (o q : ℕ) : BitVec.ofNat 32 q + BitVec.ofNat 32 o * 2048#32 = BitVec.ofNat 32 (2048 * o + q) := by
  apply BitVec.eq_of_toNat_eq
  simp only [BitVec.toNat_add, BitVec.toNat_mul, BitVec.toNat_ofNat]
  omega

/-- A word read as a SIGNED integer is the bin number `j` (a small natural) exactly when it is `j`'s word. -/
theorem toInt_eq_iff (w : BitVec 32) (j : ℕ) (hj : j < 16384) : w.toInt = (j : ℤ) ↔ w = BitVec.ofNat 32 j := by
  constructor
  · intro h
    rw [← BitVec.ofInt_toInt (x := w), h]
    exact BitVec.ofInt_natCast 32 j
  · rintro rfl
    rw [BitVec.toInt_ofNat', Int.bmod_def]
    omega

section Sum

variable (XW : (⟨2, ![256, 524288]⟩ : Shape).Idx → EReal) (MK : (⟨2, ![524288, 1]⟩ : Shape).Idx → BitVec 32)

/-- Feature position `i`'s contribution to row `b`, bin `j`: the product entry where the feature's bin word is
    `j`'s, `0` otherwise, and `0` beyond the last feature. -/
def term (b : Fin 256) (j : ℕ) (i : ℕ) : EReal :=
  if h : i < 524288 then XW (ix2 b ⟨i, h⟩) * hit (MK (ix2 ⟨i, h⟩ 0)) (BitVec.ofNat 32 j) else 0

theorem term_of_lt (b : Fin 256) (j : ℕ) (i : ℕ) (h : i < 524288) :
    term XW MK b j i = XW (ix2 b ⟨i, h⟩) * hit (MK (ix2 ⟨i, h⟩ 0)) (BitVec.ofNat 32 j) := dif_pos h

/-- THE RESULT: row `b`, bin `j` holds the sum of every feature's contribution. -/
def G : (⟨2, ![256, 16384]⟩ : Shape).Idx → EReal :=
  fun y => ∑ i ∈ Finset.range 524288, term XW MK (y 0) (y 1).val i

/-- The same as a sum over the features themselves. -/
theorem G_apply (y : (⟨2, ![256, 16384]⟩ : Shape).Idx) :
    G XW MK y = ∑ i : Fin 524288, XW (ix2 (y 0) i) * hit (MK (ix2 i 0)) (BitVec.ofNat 32 (y 1).val) := by
  unfold G
  rw [← Fin.sum_univ_eq_sum_range]
  exact Finset.sum_congr rfl fun i _ => term_of_lt XW MK (y 0) (y 1).val i.val i.isLt

end Sum

/-- THE RESULT over the three arguments: features `X0[b, i]`, signs `X1[i]`, bin words `X2[i]`:
    `out[b, j] = ∑ i, X0[b, i] · X1[i] · [X2[i] = j]`. -/
def hashed (X0 : (⟨2, ![256, 524288]⟩ : Shape).Idx → EReal) (X1 : (⟨1, ![524288]⟩ : Shape).Idx → EReal)
    (X2 : (⟨1, ![524288]⟩ : Shape).Idx → BitVec 32) : (⟨2, ![256, 16384]⟩ : Shape).Idx → EReal :=
  G (fun y => X0 y * X1 (ix1 (y 1))) (fun y => X2 (ix1 (y 0)))

/-- THE CHUNK LAW. The contributions of the first `4096·(k+1)` positions are those of the first `4096·k` plus
    chunk `k`'s, the chunk taken as two half-chunks of 2048 positions, the first added to a zero. -/
theorem sum_chunk (f : ℕ → EReal) (k : ℕ) :
    ∑ i ∈ Finset.range (4096 * (k + 1)), f i
      = ∑ i ∈ Finset.range (4096 * k), f i
        + ((0 + ∑ r : Fin 2048, f (4096 * k + r.val)) + ∑ r : Fin 2048, f (4096 * k + 2048 + r.val)) := by
  rw [Fin.sum_univ_eq_sum_range (fun r => f (4096 * k + r)) 2048,
    Fin.sum_univ_eq_sum_range (fun r => f (4096 * k + 2048 + r)) 2048, zero_add,
    show 4096 * (k + 1) = 4096 * k + 2048 + 2048 by ring, Finset.sum_range_add, Finset.sum_range_add, add_assoc]

end Cert.HashSum

end
-- ==== Proof.BodyValue.lean ====
/-
  The kernel body as a value. At one grid point the body takes the product block `x0` (256 rows × 4096 features,
  as two halves of 2048 features), the bin-word block `x1` (4096 words, as two halves) and the running block `acc`
  (256 rows × 2048 bins) and leaves `acc + ((0 + lo · H_lo) + hi · H_hi)`, where `H` is the one-hot matrix of a half:
  `H[r, q] = 1` when feature `r`'s bin word is the word of bin `2048·o + q` (`o` the bin tile), else `0`. Read at
  row `b`, bin column `q`, on the extended reals: the running entry plus, for each half, the sum over its 2048 features
  of the product entry times the indicator.
-/
import proofs.«405314_j74801150427836_3_alg».proof.Proof.Gen.KernelIdeal.Frame
import proofs.«405314_j74801150427836_3_alg».proof.Proof.HashSum
import Idealize.ShloMosaic.Lib.Pipeline.Value
import Idealize.ShloMosaic.Lib.ValueIdx
import Idealize.ShloMosaic.PureOps.Ideal.Laws
import Idealize.ShloMosaic.Lib.Tactic

noncomputable section

open scoped BigOperators

namespace Cert.KernelIdeal.BodyValue

open Cert.KernelIdeal Cert.KernelIdeal.Gen Idealize.ShloMosaic Idealize.ShloMosaic.ValueIdx Idealize.ShloMosaic.TcCoe
open Cert.HashSum

/-! ## The matrix product of a half, read at an entry -/

theorem lhs_0 (i : S256x2048.Idx) (q : dot_S256x2048_S2048x2048_S256x2048_1_0_0_1_n_n.contr.Idx) :
    (dot_S256x2048_S2048x2048_S256x2048_1_0_0_1_n_n.lhsIdx i q 0).val = (i 0).val := by
  unfold DotDims.lhsIdx
  rw [dif_neg (show ¬(0 : Fin S256x2048.rank) ∈ dot_S256x2048_S2048x2048_S256x2048_1_0_0_1_n_n.lhsBatch by decide), dif_pos (show (0 : Fin S256x2048.rank) ∈ dot_S256x2048_S2048x2048_S256x2048_1_0_0_1_n_n.lhsNonContracting by decide)]
  rfl

theorem lhs_1 (i : S256x2048.Idx) (q : dot_S256x2048_S2048x2048_S256x2048_1_0_0_1_n_n.contr.Idx) :
    (dot_S256x2048_S2048x2048_S256x2048_1_0_0_1_n_n.lhsIdx i q 1).val = (q ⟨0, by decide⟩).val :=
  dot_S256x2048_S2048x2048_S256x2048_1_0_0_1_n_n.lhsIdx_val_of_single rfl i q

theorem rhs_0 (i : S256x2048.Idx) (q : dot_S256x2048_S2048x2048_S256x2048_1_0_0_1_n_n.contr.Idx) :
    (dot_S256x2048_S2048x2048_S256x2048_1_0_0_1_n_n.rhsIdx i q 0).val = (q ⟨0, by decide⟩).val :=
  dot_S256x2048_S2048x2048_S256x2048_1_0_0_1_n_n.rhsIdx_val_of_single rfl i q

theorem rhs_1 (i : S256x2048.Idx) (q : dot_S256x2048_S2048x2048_S256x2048_1_0_0_1_n_n.contr.Idx) :
    (dot_S256x2048_S2048x2048_S256x2048_1_0_0_1_n_n.rhsIdx i q 1).val = (i 1).val := by
  unfold DotDims.rhsIdx
  rw [dif_neg (show ¬(1 : Fin S2048x2048.rank) ∈ dot_S256x2048_S2048x2048_S256x2048_1_0_0_1_n_n.rhsBatch by decide), dif_pos (show (1 : Fin S2048x2048.rank) ∈ dot_S256x2048_S2048x2048_S256x2048_1_0_0_1_n_n.rhsNonContracting by decide)]
  rfl

/-- Rows times columns into a zero block: entry `(b, q)` is the sum over the 2048 contracted positions `r` of
    `x[b, r] · w[r, q]`. -/
theorem mm_apply (x : FVec Ideal S256x2048 .bf16) (w : FVec Ideal S2048x2048 .bf16) (b : Fin 256) (q : Fin 2048) :
    matmul dot_S256x2048_S2048x2048_S256x2048_1_0_0_1_n_n none x w (constant S256x2048 .f32 0x00000000#32) (ix2 b q)
      = ∑ r : Fin 2048, x (ix2 b r) * w (ix2 r q) := by
  simp only [matmul]
  rw [Ideal.matmul_constant_zero_apply, ← Equiv.sum_comp (contrEquiv1 dot_S256x2048_S2048x2048_S256x2048_1_0_0_1_n_n 2048 rfl rfl).symm]
  refine Finset.sum_congr rfl fun r _ => ?_
  have hk := contrEquiv1_symm_val dot_S256x2048_S2048x2048_S256x2048_1_0_0_1_n_n 2048 rfl rfl r
  have el : dot_S256x2048_S2048x2048_S256x2048_1_0_0_1_n_n.lhsIdx (ix2 b q) ((contrEquiv1 dot_S256x2048_S2048x2048_S256x2048_1_0_0_1_n_n 2048 rfl rfl).symm r) = ix2 b r := funext fun a => Fin.ext (by
    match a with
    | ⟨0, _⟩ => exact lhs_0 _ _
    | ⟨1, _⟩ => exact (lhs_1 _ _).trans hk)
  have er : dot_S256x2048_S2048x2048_S256x2048_1_0_0_1_n_n.rhsIdx (ix2 b q) ((contrEquiv1 dot_S256x2048_S2048x2048_S256x2048_1_0_0_1_n_n 2048 rfl rfl).symm r) = ix2 r q := funext fun a => Fin.ext (by
    match a with
    | ⟨0, _⟩ => exact (rhs_0 _ _).trans hk
    | ⟨1, _⟩ => exact rhs_1 _ _)
  rw [el, er]

/-! ## The one-hot matrix of a half -/

variable {F : FTy → Type} [FloatOps F]

/-- The one-hot matrix the body builds from a half `v` of the bin-word block at bin tile `i 0`: the words broadcast
    along the columns, compared with the row of bin words `iota + 2048·o` broadcast along the rows, the bit widened
    and converted. -/
def onehot (i : grid0.Coords) (v : Vec F S2048x1 .i32) : FVec F S2048x2048 .bf16 :=
  truncf .bf16 (sitofp .f32 (extui 32 (cmpi .eq
    (broadcastTo S2048x2048 (shapeCast S2048x1 v shapeCasts_S2048x1_S2048x1 : IVec S2048x1 32) broadcasts_S2048x1_S2048x2048)
    (broadcastTo S2048x2048 (addi (iota .tc S1x2048 32 [1] iota_S1x2048_d1_w32)
      (broadcast S1x2048 (Scalar.muli (BitVec.ofNat 32 (i 0).val) 2048#32)) : IVec S1x2048 32) broadcasts_S1x2048_S2048x2048))
    natLt_1_32)) bitsLt_bf16_f32

/-- The body's store, spelt over the one-hot matrices. -/
theorem pay2_eq (i : grid0.Coords) (v8 : Vec F S256x2048 .bf16) (v10 : Vec F S2048x1 .i32) (v20 : Vec F S256x2048 .bf16)
    (v22 : Vec F S2048x1 .i32) (v32 : Vec F S256x2048 .f32) :
    k0_pay2 i v8 v10 v20 v22 v32
      = addf (shapeCast S256x2048 v32 shapeCasts_S256x2048_S256x2048)
          (addf (addf (broadcast S256x2048 (Scalar.ofBits .f32 0x00000000#32))
              (matmul dot_S256x2048_S2048x2048_S256x2048_1_0_0_1_n_n none (shapeCast S256x2048 v8 shapeCasts_S256x2048_S256x2048) (onehot i v10) (constant S256x2048 .f32 0x00000000#32)))
            (matmul dot_S256x2048_S2048x2048_S256x2048_1_0_0_1_n_n none (shapeCast S256x2048 v20 shapeCasts_S256x2048_S256x2048) (onehot i v22) (constant S256x2048 .f32 0x00000000#32))) := rfl

/-- Entry `(r, q)` of the one-hot matrix: the indicator that feature `r`'s word is the word of bin `2048·o + q`. -/
theorem onehot_apply (i : grid0.Coords) (v : Vec Ideal S2048x1 .i32) (r q : Fin 2048) :
    onehot (F := Ideal) i v (ix2 r q) = hit (v (ix2 r 0)) (BitVec.ofNat 32 (2048 * (i 0).val + q.val)) := by
  unfold onehot
  rw [truncf_apply, sitofp_apply, extui_apply]
  show FloatOps.sitofp (F := Ideal) .f32 ((IntOp.cmpi .eq
      (broadcastTo S2048x2048 (shapeCast S2048x1 v shapeCasts_S2048x1_S2048x1 : IVec S2048x1 32) broadcasts_S2048x1_S2048x2048 (ix2 r q))
      (broadcastTo S2048x2048 (addi (iota .tc S1x2048 32 [1] iota_S1x2048_d1_w32)
        (broadcast S1x2048 (Scalar.muli (BitVec.ofNat 32 (i 0).val) 2048#32)) : IVec S1x2048 32) broadcasts_S1x2048_S2048x2048 (ix2 r q))).setWidth 32) = _
  rw [sitofp_cmpi_eq, shapeCast_self,
    broadcastTo_apply _ broadcasts_S2048x1_S2048x2048 (ix2 r q) (ix2 r 0) (fun a => match a with
      | ⟨0, _⟩ => by show r.val = if (2048 : Nat) = 1 then 0 else r.val; rw [if_neg (by decide)]
      | ⟨1, _⟩ => by show (0 : Nat) = if (1 : Nat) = 1 then 0 else q.val; rw [if_pos rfl]),
    broadcastTo_apply _ broadcasts_S1x2048_S2048x2048 (ix2 r q) (ix2 0 q) (fun a => match a with
      | ⟨0, _⟩ => by show (0 : Nat) = if (1 : Nat) = 1 then 0 else r.val; rw [if_pos rfl]
      | ⟨1, _⟩ => by show q.val = if (2048 : Nat) = 1 then 0 else q.val; rw [if_neg (by decide)])]
  show hit (v (ix2 r 0)) (iota .tc S1x2048 32 [1] iota_S1x2048_d1_w32 (ix2 0 q) + BitVec.ofNat 32 (i 0).val * 2048#32) = _
  rw [iota_single_apply]
  exact congrArg (hit (v (ix2 r 0))) (binWord (i 0).val q.val)

/-- THE BODY AT AN ENTRY, on the extended reals. -/
theorem pay2_apply (i : grid0.Coords) (v8 : Vec Ideal S256x2048 .bf16) (v10 : Vec Ideal S2048x1 .i32) (v20 : Vec Ideal S256x2048 .bf16)
    (v22 : Vec Ideal S2048x1 .i32) (v32 : Vec Ideal S256x2048 .f32) (b : Fin 256) (q : Fin 2048) :
    k0_pay2 (F := Ideal) i v8 v10 v20 v22 v32 (ix2 b q)
      = v32 (ix2 b q)
        + ((0 + ∑ r : Fin 2048, v8 (ix2 b r) * hit (v10 (ix2 r 0)) (BitVec.ofNat 32 (2048 * (i 0).val + q.val)))
          + ∑ r : Fin 2048, v20 (ix2 b r) * hit (v22 (ix2 r 0)) (BitVec.ofNat 32 (2048 * (i 0).val + q.val))) := by
  rw [pay2_eq, shapeCast_self, shapeCast_self, shapeCast_self]
  show v32 (ix2 b q) + ((Ideal.ofBits .f32 0x00000000#32 + matmul dot_S256x2048_S2048x2048_S256x2048_1_0_0_1_n_n none v8 (onehot i v10) (constant S256x2048 .f32 0x00000000#32) (ix2 b q))
      + matmul dot_S256x2048_S2048x2048_S256x2048_1_0_0_1_n_n none v20 (onehot i v22) (constant S256x2048 .f32 0x00000000#32) (ix2 b q)) = _
  rw [mm_apply, mm_apply, Ideal.ofBits_zero_f32]
  simp only [onehot_apply]

/-- The block a reset stores is zero everywhere. -/
theorem pay1_apply (y : S256x2048.Idx) : k0_pay1 (F := Ideal) y = 0 := by
  show Ideal.ofBits .f32 0x00000000#32 = 0
  exact Ideal.ofBits_zero_f32

end Cert.KernelIdeal.BodyValue

end
-- ==== Proof.KernelValue.lean ====
/-
  The kernel as a value. The grid has 8 bin tiles `o` (2048 bins each) times 128 feature chunks `k` (4096 features
  each), point `n = 128·o + k`. The output block of bin tile `o` stays in its buffer over the 128 chunks: chunk 0
  resets it to zero and every chunk adds its one-hot products (Proof/BodyValue.lean), the block is written back after
  chunk 127. So after point `n` the block holds, at row `b` and bin column `q`, the contributions to bin
  `2048·o + q` of the first `4096·(k+1)` feature positions (an induction on the point, by the chunk law); after chunk 127
  that is every feature's, the hashed sum's entry; and the eight blocks written back tile the result array.
-/
import proofs.«405314_j74801150427836_3_alg».proof.Proof.Gen.KernelIdeal.Value
import proofs.«405314_j74801150427836_3_alg».proof.Proof.BodyValue
import proofs.«405314_j74801150427836_3_alg».proof.Proof.HashSum
import Idealize.ShloMosaic.Lib.Pipeline.Value
import Idealize.ShloMosaic.Lib.StableHlo.Run
import Idealize.ShloMosaic.Lib.ValueIdx
import Idealize.ShloMosaic.Lib.Tactic

noncomputable section

open scoped BigOperators

namespace Cert.KernelIdeal.KernelValue

open Cert.KernelIdeal Cert.KernelIdeal.Gen Idealize.ShloMosaic Idealize.ShloMosaic.ValueIdx Idealize.ShloMosaic.TcCoe Idealize.SL.Sem
open Idealize.ShloMosaic.Pipeline (Dat)
open Cert.HashSum Cert.KernelIdeal.BodyValue

/-! ## What a point leaves in the output block -/

section AnyValues

variable {F : FTy → Type} [FloatOps F]

theorem hz : (![0, 0] : Fin 2 → Nat) = fun _ => 0 := funext fun a => by fin_cases a <;> rfl

/-- The two halves (2048 features each) of a product block and of a bin-word block, as the body loads them. -/
abbrev xlo (x0 : Vec F S256x4096 .bf16) : Vec F S256x2048 .bf16 :=
  View.ld x0 (Rect.unit ![0, 0] S256x2048.size inb_S256x4096_S256x2048_0_0)
abbrev xhi (x0 : Vec F S256x4096 .bf16) : Vec F S256x2048 .bf16 :=
  View.ld x0 (Rect.unit ![0, 2048] S256x2048.size inb_S256x4096_S256x2048_0_2048)
abbrev mlo (x1 : Vec F S4096x1 .i32) : Vec F S2048x1 .i32 :=
  View.ld x1 (Rect.unit ![0, 0] S2048x1.size inb_S4096x1_S2048x1_0_0)
abbrev mhi (x1 : Vec F S4096x1 .i32) : Vec F S2048x1 .i32 :=
  View.ld x1 (Rect.unit ![2048, 0] S2048x1.size inb_S4096x1_S2048x1_2048_0)

theorem xlo_apply (x0 : Vec F S256x4096 .bf16) (b : Fin 256) (r : Fin 2048) :
    xlo x0 (ix2 b r) = x0 (ix2 b ⟨r.val, by have := r.isLt; omega⟩) :=
  congrArg x0 (funext fun a => Fin.ext (by
    match a with
    | ⟨0, _⟩ => show 0 + 1 * b.val = b.val; omega
    | ⟨1, _⟩ => show 0 + 1 * r.val = r.val; omega))
theorem xhi_apply (x0 : Vec F S256x4096 .bf16) (b : Fin 256) (r : Fin 2048) :
    xhi x0 (ix2 b r) = x0 (ix2 b ⟨2048 + r.val, by have := r.isLt; omega⟩) :=
  congrArg x0 (funext fun a => Fin.ext (by
    match a with
    | ⟨0, _⟩ => show 0 + 1 * b.val = b.val; omega
    | ⟨1, _⟩ => show 2048 + 1 * r.val = 2048 + r.val; omega))
theorem mlo_apply (x1 : Vec F S4096x1 .i32) (r : Fin 2048) :
    mlo x1 (ix2 r 0) = x1 (ix2 ⟨r.val, by have := r.isLt; omega⟩ 0) :=
  congrArg x1 (funext fun a => Fin.ext (by
    match a with
    | ⟨0, _⟩ => show 0 + 1 * r.val = r.val; omega
    | ⟨1, _⟩ => show 0 + 1 * 0 = 0; omega))
theorem mhi_apply (x1 : Vec F S4096x1 .i32) (r : Fin 2048) :
    mhi x1 (ix2 r 0) = x1 (ix2 ⟨2048 + r.val, by have := r.isLt; omega⟩ 0) :=
  congrArg x1 (funext fun a => Fin.ext (by
    match a with
    | ⟨0, _⟩ => show 2048 + 1 * r.val = 2048 + r.val; omega
    | ⟨1, _⟩ => show 0 + 1 * 0 = 0; omega))

/-- A point that does not reset: the block `xo` the point before left, plus the chunk. -/
theorem out_B (c : Dev nD) (i : grid0.Coords) (a2 : Memref sig .tc .vmem S256x4096 .bf16) (h2 : a2.IsWhole)
    (a3 : Memref sig .tc .vmem S4096x1 .i32) (h3 : a3.IsWhole) (a4 : Memref sig .tc .vmem S256x2048 .f32) (h4 : a4.IsWhole)
    (hc : ¬cond0_0 i) (x0 : Vec F S256x4096 .bf16) (x1 : Vec F S4096x1 .i32) (xo : Vec F S256x2048 .f32) :
    out0_B_2 c i a2 h2 a3 h3 a4 h4 hc x0 x1 xo = k0_pay2 i (xlo x0) (mlo x1) (xhi x0) (mhi x1) xo := by
  unfold out0_B_2
  rw [View.read_writes_eq_canon _ _ _ (cover0_B_2 c i a2 h2 a3 h3 a4 h4 hc x0 x1 xo)]
  unfold kernelRun0_B
  dsimp only
  rw [View.canon_unit_zero hz]
  simp only [View.readAt_eq_ld, h2.read_unread, h3.read_unread, h4.read_unread, View.ld_unit_zero (S := S256x2048) hz]

/-- A point that resets (chunk 0): the zero block, read back, plus the chunk. -/
theorem out_A (c : Dev nD) (i : grid0.Coords) (a2 : Memref sig .tc .vmem S256x4096 .bf16) (h2 : a2.IsWhole)
    (a3 : Memref sig .tc .vmem S4096x1 .i32) (h3 : a3.IsWhole) (a4 : Memref sig .tc .vmem S256x2048 .f32) (h4 : a4.IsWhole)
    (hc : cond0_0 i) (x0 : Vec F S256x4096 .bf16) (x1 : Vec F S4096x1 .i32) :
    out0_A_2 c i a2 h2 a3 h3 a4 h4 hc x0 x1 = k0_pay2 i (xlo x0) (mlo x1) (xhi x0) (mhi x1) k0_pay1 := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S256x2048) hz, View.readCov_unit_zero (S := S256x2048) _ hz]
  simp only [View.readAt_eq_ld, h2.read_unread, h3.read_unread]

/-! ## Where the blocks sit -/

/-- The index maps over the grid: at point `n` the product block is feature chunk `n % 128` (all 256 rows), the
    bin-word block the same chunk, the output block bin tile `n / 128`, which is also the body's first coordinate. -/
theorem idx_facts : ∀ t : Fin cfg0.N, win0_0.index t (0 : Fin 2) = 0 ∧ win0_0.index t (1 : Fin 2) = t.val % 128
    ∧ win0_1.index t (0 : Fin 2) = t.val % 128 ∧ win0_1.index t (1 : Fin 2) = 0
    ∧ win0_2.index t (0 : Fin 2) = 0 ∧ win0_2.index t (1 : Fin 2) = t.val / 128
    ∧ (grid0.coords t 0).val = t.val / 128 :=
  (by decide +kernel : ∀ t : Fin grid0.N, _)

variable (m : (ℓ : Loc nD τ sig) → Buf (Elt F) ℓ)

/-- The product block at a point, read at row `b`, position `r` of the chunk: the product array at feature
    `4096·(n % 128) + r`. -/
theorem xblk_apply (c : Dev nD) (t : Fin cfg0.N) (b : Fin 256) (r i : ℕ) (hr : r < 4096) (hi : i < 524288)
    (e : i = 4096 * (t.val % 128) + r) :
    (iblk m c 0 t : Vec F S256x4096 .bf16) (ix2 b ⟨r, hr⟩) = (V m c main_v3 : Vec F S256x524288 .bf16) (ix2 b ⟨i, hi⟩) := by
  subst e
  unfold iblk
  rw [View.read_apply]
  show V m c main_v3 _ = V m c main_v3 _
  refine congrArg (V m c main_v3) (funext fun a => Fin.ext ?_)
  obtain ⟨e0, e1, -⟩ := idx_facts t
  match a with
  | ⟨0, _⟩ => show win0_0.index t (0 : Fin 2) * 256 + 1 * b.val = b.val; rw [e0]; omega
  | ⟨1, _⟩ => show win0_0.index t (1 : Fin 2) * 4096 + 1 * r = 4096 * (t.val % 128) + r; rw [e1]; omega

/-- The bin-word block at a point, read at position `r` of the chunk: the word of feature `4096·(n % 128) + r`. -/
theorem mblk_apply (c : Dev nD) (t : Fin cfg0.N) (r i : ℕ) (hr : r < 4096) (hi : i < 524288)
    (e : i = 4096 * (t.val % 128) + r) :
    (iblk m c 1 t : Vec F S4096x1 .i32) (ix2 ⟨r, hr⟩ 0) = (V m c main_v4 : Vec F S524288x1 .i32) (ix2 ⟨i, hi⟩ 0) := by
  subst e
  unfold iblk
  rw [View.read_apply]
  show V m c main_v4 _ = V m c main_v4 _
  refine congrArg (V m c main_v4) (funext fun a => Fin.ext ?_)
  obtain ⟨-, -, e2, e3, -⟩ := idx_facts t
  match a with
  | ⟨0, _⟩ => show win0_1.index t (0 : Fin 2) * 4096 + 1 * r = 4096 * (t.val % 128) + r; rw [e2]; omega
  | ⟨1, _⟩ => show win0_1.index t (1 : Fin 2) * 1 + 1 * 0 = 0; rw [e3]

end AnyValues

/-! ## On the extended reals: the running block is a partial hashed sum -/

variable (m : (ℓ : Loc nD τ sig) → Buf (Elt Ideal) ℓ) (ρ : Dev nD → PrngReg)

/-- The product array (features times signs) and the bin-word column as the region finds them. -/
abbrev xwArr (c : Dev nD) : (⟨2, ![256, 524288]⟩ : Shape).Idx → EReal := V m c main_v3
abbrev mkArr (c : Dev nD) : (⟨2, ![524288, 1]⟩ : Shape).Idx → BitVec 32 := V m c main_v4

/-- Feature position `i`'s contribution to row `b`, bin `j`, over those arrays. -/
abbrev tm (c : Dev nD) (b : Fin 256) (j i : ℕ) : EReal := term (xwArr m c) (mkArr m c) b j i

/-- The body at point `n` adds to the running entry the contributions of chunk `n % 128` to bin `2048·(n / 128) + q`. -/
theorem step_apply (c : Dev nD) (t : Fin cfg0.N) (acc : Vec Ideal S256x2048 .f32) (b : Fin 256) (q : Fin 2048) :
    k0_pay2 (F := Ideal) (grid0.coords t) (xlo (iblk m c 0 t)) (mlo (iblk m c 1 t)) (xhi (iblk m c 0 t)) (mhi (iblk m c 1 t)) acc (ix2 b q)
      = acc (ix2 b q)
        + ((0 + ∑ r : Fin 2048, tm m c b (2048 * (t.val / 128) + q.val) (4096 * (t.val % 128) + r.val))
          + ∑ r : Fin 2048, tm m c b (2048 * (t.val / 128) + q.val) (4096 * (t.val % 128) + 2048 + r.val)) := by
  have hN : t.val < 1024 := lt_of_lt_of_eq t.isLt N_0
  obtain ⟨-, -, -, -, -, -, eo⟩ := idx_facts t
  refine (pay2_apply _ _ _ _ _ _ b q).trans ?_
  rw [eo]
  refine congrArg (acc (ix2 b q) + ·) (congrArg₂ (· + ·) (congrArg (0 + ·) (Finset.sum_congr rfl fun r _ => ?_))
    (Finset.sum_congr rfl fun r _ => ?_))
  · have hr : r.val < 2048 := r.isLt
    exact (congrArg₂ (· * ·) ((xlo_apply _ b r).trans (xblk_apply m c t b r.val _ (by omega) (by omega) rfl))
      (congrArg (hit · _) ((mlo_apply _ r).trans (mblk_apply m c t r.val _ (by omega) (by omega) rfl)))).trans
      (term_of_lt (xwArr m c) (mkArr m c) b _ _ (by omega)).symm
  · have hr : r.val < 2048 := r.isLt
    exact (congrArg₂ (· * ·) ((xhi_apply _ b r).trans (xblk_apply m c t b (2048 + r.val) (4096 * (t.val % 128) + 2048 + r.val) (by omega) (by omega) (by omega)))
      (congrArg (hit · _) ((mhi_apply _ r).trans (mblk_apply m c t (2048 + r.val) (4096 * (t.val % 128) + 2048 + r.val) (by omega) (by omega) (by omega))))).trans
      (term_of_lt (xwArr m c) (mkArr m c) b _ _ (by omega)).symm

/-- THE RUNNING BLOCK. After point `n`, entry `(b, q)` of the output block is the sum of the contributions to bin
    `2048·(n / 128) + q` of the first `4096·(n % 128 + 1)` feature positions. By induction on the point: a reset point
    starts from zero, any other from what the point before left, and the chunk law adds the chunk. -/
theorem outsAt_apply (c : Dev nD) (n : ℕ) : ∀ (h : n < cfg0.N) (b : Fin 256) (q : Fin 2048),
    outsAt0 m c n h (ix2 b q) = ∑ i ∈ Finset.range (4096 * (n % 128 + 1)), tm m c b (2048 * (n / 128) + q.val) i := by
  induction n using Nat.strong_induction_on with
  | _ n ih =>
    intro h b q
    have hN : n < 1024 := lt_of_lt_of_eq h N_0
    by_cases h0 : n % 128 = 0
    · refine (congrFun ((outsAt0_A m c ⟨n, h⟩ h0).trans (out_A c _ _ _ _ _ _ _ _ _ _)) (ix2 b q)).trans ?_
      refine (step_apply m c ⟨n, h⟩ _ b q).trans ?_
      dsimp only
      rw [pay1_apply, sum_chunk (tm m c b (2048 * (n / 128) + q.val)) (n % 128), h0, Nat.mul_zero, Finset.range_zero,
        Finset.sum_empty]
    · refine (congrFun ((outsAt0_B m c ⟨n, h⟩ h0).trans (out_B c _ _ _ _ _ _ _ _ _ _ _)) (ix2 b q)).trans ?_
      refine (step_apply m c ⟨n, h⟩ _ b q).trans ?_
      dsimp only
      rw [ih (n - 1) (by omega) _ b q, sum_chunk (tm m c b (2048 * (n / 128) + q.val)) (n % 128)]
      have e1 : (n - 1) % 128 + 1 = n % 128 := by omega
      have e2 : (n - 1) / 128 = n / 128 := by omega
      rw [e1, e2]

/-! ## The result array -/

/-- The hashed sum over the arrays the region finds. -/
abbrev Gout (c : Dev nD) : (⟨2, ![256, 16384]⟩ : Shape).Idx → EReal := G (xwArr m c) (mkArr m c)

/-- The output window's blocks are whole blocks of the staging buffer, -/
theorem cut_blk (t : Fin cfg0.N) (X : Vec Ideal S256x2048 .f32) : (cfg0.win 2).cut (grid0.coords t) X = X := rfl

/-- and a function of the result array read through point `t`'s block is the function at the block's indices. -/
theorem read_blk (g : S256x16384.Idx → EReal) (t : Fin cfg0.N) (y : S256x2048.Idx) :
    ((cfg0.win 2).blk t).view.read (Elt Ideal) g y = g (((cfg0.win 2).blk t).view.emb y) := rfl

/-- WHAT A WRITING POINT WRITES BACK (chunk 127 of a bin tile): that tile's block of the hashed sum. -/
theorem flushed_eq (c : Dev nD) (t : Fin cfg0.N) (hf : (cfg0.win 2).flush t = true) :
    (dats m 0 c).flushed 2 t = ((cfg0.win 2).blk t).view.read (Elt Ideal) (Gout m c) := by
  have h127 : t.val % 128 = 127 := (flush0_2 t).mp hf
  obtain ⟨-, -, -, -, e4, e5, -⟩ := idx_facts t
  show (cfg0.win 2).cut (grid0.coords t) ((dats m 0 c).after 2 t) = _
  rw [after0_2, cut_blk]
  funext y
  obtain ⟨b, q, rfl⟩ : ∃ (b : Fin 256) (q : Fin 2048), y = ix2 b q := ⟨y 0, y 1, eq_ix2 y⟩
  rw [read_blk, outsAt_apply m c t.val t.isLt b q, h127]
  have hy0 : (((cfg0.win 2).blk t).view.emb (ix2 b q) 0 : Fin 256) = b :=
    Fin.ext (by show win0_2.index t (0 : Fin 2) * 256 + 1 * b.val = b.val; rw [e4]; omega)
  have hy1 : ((((cfg0.win 2).blk t).view.emb (ix2 b q) 1 : Fin 16384)).val = 2048 * (t.val / 128) + q.val := by
    show win0_2.index t (1 : Fin 2) * 2048 + 1 * q.val = _; rw [e5]; omega
  show _ = ∑ i ∈ Finset.range 524288, term (xwArr m c) (mkArr m c) (((cfg0.win 2).blk t).view.emb (ix2 b q) 0 : Fin 256)
      (((cfg0.win 2).blk t).view.emb (ix2 b q) 1 : Fin 16384).val i
  rw [hy0, hy1]

/-- An index of the result array is in point `t`'s block iff each coordinate is in the block's range on its axis. -/
theorem mem_blk (t : Fin cfg0.N) (i : S256x16384.Idx) :
    i ∈ ((cfg0.win 2).blk t).view.set ↔ ∀ a : Fin 2, win0_2.index t a * S256x2048.size a ≤ (i a).val ∧ (i a).val < win0_2.index t a * S256x2048.size a + S256x2048.size a := by
  show i ∈ ((View.whole main_v5).slice (win0_2.rect t)).set ↔ _
  rw [View.set_slice_whole, Rect.mem_set_unit]
  exact Iff.rfl

/-- Every entry of the result array is in the block some writing point writes: bin `j`'s tile at its chunk 127. -/
theorem covered (i : S256x16384.Idx) :
    ∃ t : Fin cfg0.N, (cfg0.win 2).flush t = true ∧ i ∈ ((cfg0.win 2).blk t).view.set := by
  have hi0 : (i 0).val < 256 := (i 0).isLt
  have hi1 : (i 1).val < 16384 := (i 1).isLt
  have hlt : 128 * ((i 1).val / 2048) + 127 < cfg0.N := by rw [show cfg0.N = 1024 from N_0]; omega
  refine ⟨⟨128 * ((i 1).val / 2048) + 127, hlt⟩, (flush0_2 _).mpr (by show (128 * ((i 1).val / 2048) + 127) % 128 = 127; omega), ?_⟩
  obtain ⟨-, -, -, -, e4, e5, -⟩ := idx_facts ⟨128 * ((i 1).val / 2048) + 127, hlt⟩
  rw [mem_blk]
  intro a
  match a with
  | ⟨0, _⟩ =>
    show win0_2.index ⟨128 * ((i 1).val / 2048) + 127, hlt⟩ (0 : Fin 2) * 256 ≤ (i 0).val ∧ (i 0).val < win0_2.index ⟨128 * ((i 1).val / 2048) + 127, hlt⟩ (0 : Fin 2) * 256 + 256
    rw [e4]; omega
  | ⟨1, _⟩ =>
    show win0_2.index ⟨128 * ((i 1).val / 2048) + 127, hlt⟩ (1 : Fin 2) * 2048 ≤ (i 1).val ∧ (i 1).val < win0_2.index ⟨128 * ((i 1).val / 2048) + 127, hlt⟩ (1 : Fin 2) * 2048 + 2048
    rw [e5]; dsimp only; omega

/-- So the result array ends holding the hashed sum over the region's arrays. -/
theorem final (c : Dev nD) : (dats m 0 c).arrAt 2 cfg0.N = Gout m c :=
  (dats m 0 c).arrAt_eq_of_cover 2 (Gout m c) (flushed_eq m c) (covered)

/-! ## The region's arrays over the arguments -/

/-- The sign row broadcast to every batch row reads the sign of the feature. -/
theorem signs_apply (s : S524288.Idx → EReal) (y : S256x524288.Idx) :
    broadcastInDim S256x524288 ![0, 1] bcast_S1x524288_S256x524288_0_1 (broadcastInDim S1x524288 ![1] bcast_S524288_S1x524288_1 s) y
      = s (ix1 (y 1)) := by
  rw [broadcastInDim_apply _ bcast_S1x524288_S256x524288_0_1 _ y (ix2 (0 : Fin 1) (y 1 : Fin 524288)) (fun a => match a with
      | ⟨0, _⟩ => by show 0 = if (1 : Nat) = 1 then 0 else (y 0).val; rw [if_pos rfl]
      | ⟨1, _⟩ => by show (y 1).val = if (524288 : Nat) = 1 then 0 else (y 1).val; rw [if_neg (by decide)]),
    broadcastInDim_apply _ bcast_S524288_S1x524288_1 _ (ix2 (0 : Fin 1) (y 1 : Fin 524288)) (ix1 (y 1 : Fin 524288)) (fun a => match a with
      | ⟨0, _⟩ => by show (y 1).val = if (524288 : Nat) = 1 then 0 else (y 1).val; rw [if_neg (by decide)])]

/-- The three arguments as launched: features, signs, bin words. -/
abbrev arg0 (c : Dev nD) : (⟨2, ![256, 524288]⟩ : Shape).Idx → EReal := m ((c : Thread nD τ).loc main_arg0)
abbrev arg1 (c : Dev nD) : (⟨1, ![524288]⟩ : Shape).Idx → EReal := m ((c : Thread nD τ).loc main_arg1)
abbrev arg2 (c : Dev nD) : (⟨1, ![524288]⟩ : Shape).Idx → BitVec 32 := m ((c : Thread nD τ).loc main_arg2)

/-- The product array is features times signs (the change of format is the identity on the extended reals). -/
theorem xwArr_eq (c : Dev nD) : xwArr m c = fun y => arg0 m c y * arg1 m c (ix1 (y 1)) := by
  have e : xwArr m c
      = (truncf (F := Ideal) .bf16 (mulf (arg0 m c : FVec Ideal S256x524288 .f32)
          (broadcastInDim S256x524288 ![0, 1] bcast_S1x524288_S256x524288_0_1
            (broadcastInDim S1x524288 ![1] bcast_S524288_S1x524288_1 (arg1 m c : FVec Ideal S524288 .f32)))) bitsLt_bf16_f32
          : FVec Ideal S256x524288 .bf16) := by
    dsimp only [xwArr, V, hostOps0]; after_results <;> rfl
  funext y
  rw [e, truncf_apply, mulf_apply, signs_apply]

/-- The bin-word column is the bin words reshaped. -/
theorem mkArr_eq (c : Dev nD) : mkArr m c = fun y => arg2 m c (ix1 (y 0)) := by
  have e : mkArr m c = (shapeCast S524288x1 (arg2 m c : IVec S524288 32) shapeCasts_S524288_S524288x1 : IVec S524288x1 32) := by
    dsimp only [mkArr, V, hostOps0]; after_results <;> rfl
  funext y
  rw [e]
  refine shapeCast_apply _ shapeCasts_S524288_S524288x1 y (ix1 (y 0 : Fin 524288)) ?_
  rw [Shape.rowMajor_val_one, Shape.rowMajor_val_two]
  have : (y 1).val < 1 := (y 1).isLt
  show (y 0).val = (y 0).val * 1 + (y 1).val
  omega

/-- THE RESULT over the arguments. -/
theorem final_args (c : Dev nD) : (dats m 0 c).arrAt 2 cfg0.N = hashed (arg0 m c) (arg1 m c) (arg2 m c) := by
  refine (final m c).trans ?_
  unfold hashed
  show G (xwArr m c) (mkArr m c) = _
  rw [xwArr_eq, mkArr_eq]

/-- The kernel's run, read: the result array at the hashed sum of the arguments, the arguments unchanged. -/
theorem run : θ_run defs (onTc (τ := τ) (main (F := Ideal))) ⟨m, fun _ => 0, ρ⟩ fun r => ∀ c : Dev nD,
      r.2.mem ((c : Thread nD τ).loc main_v5) = hashed (arg0 m c) (arg1 m c) (arg2 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final_args m c), (h c).2⟩) (Value.run_blocks m ρ)

end Cert.KernelIdeal.KernelValue

end
-- ==== Proof.RefValue.lean ====
/-
  The reference as a value. The reference scales the features by their signs, transposes, scatter-adds row `i` of the
  transposed product into row `mask[i]` of a zero [bins × batch] array, and transposes back. A scatter-add on the
  extended reals leaves at each element the operand there plus the sum of the updates that land there; an update lands
  where its start index — the bin word READ SIGNED, not clamped — plus its window coordinate is inside the operand, and
  is dropped otherwise. For this scatter an update `(i, b')` lands at `(mask[i], b')`: so entry `(j, b)` collects
  exactly the features whose bin word, read signed, is `j` — which for a bin number is to be `j`'s word.
-/
import proofs.«405314_j74801150427836_3_alg».proof.Proof.Gen.ReferenceIdeal.Read
import proofs.«405314_j74801150427836_3_alg».proof.Proof.HashSum
import Idealize.ShloMosaic.PureOps.Ideal
import Idealize.ShloMosaic.PureOps.Ideal.Laws
import Idealize.ShloMosaic.Lib.ValueIdx

noncomputable section

open scoped BigOperators

namespace Cert.ReferenceIdeal.RefValue

open Cert.ReferenceIdeal Cert.ReferenceIdeal.Gen Idealize.ShloMosaic Idealize.ShloMosaic.ValueIdx
open Cert.HashSum

/-! ## Where an update lands -/

/-- The scatter's dimension numbers: the start index's one component goes to operand axis 0 (the bins), the update's
    axis 1 is its window over operand axis 1 (the batch). -/
abbrev D := scatter_S16384x256_S524288x1_S524288x256_1_0_0_1

/-- On the bin axis the window adds nothing; -/
theorem window0 (u : S524288x256.Idx) : D.window u 0 = 0 := by
  unfold ScatterDims.window
  rw [dif_neg (by decide)]

/-- on the batch axis it is the update's batch coordinate. -/
theorem window1 (u : S524288x256.Idx) : D.window u 1 = (u 1).val := by
  unfold ScatterDims.window
  rw [dif_pos (by decide)]
  rfl

/-- The batch axis has no start component; -/
theorem start1 (u : S524288x256.Idx) (idx : IVec S524288x1 32) : D.start u idx 1 = 0 := by
  unfold ScatterDims.start
  rw [dif_neg (by decide)]

/-- update `u` reads its start index at row `u 0` of the index column; -/
theorem siIdx0 (u : S524288x256.Idx) (c : Fin D.scatterDimsToOperandDims.length) : D.siIdx u c = ix2 (u 0) 0 := by
  funext b
  fin_cases b
  · unfold ScatterDims.siIdx
    rw [dif_neg (by decide)]
    rfl
  · unfold ScatterDims.siIdx
    rw [dif_pos (by rfl)]
    apply Fin.ext
    have := c.isLt
    show c.val = 0
    have h1 : D.scatterDimsToOperandDims.length = 1 := rfl
    omega

/-- so the bin axis starts at that word, read signed. -/
theorem start0 (u : S524288x256.Idx) (idx : IVec S524288x1 32) : D.start u idx 0 = (idx (ix2 (u 0) 0)).toInt := by
  unfold ScatterDims.start
  rw [dif_pos (by decide), siIdx0]
  rfl

/-- WHERE AN UPDATE LANDS: at `(j, b)` exactly when its word read signed is `j` and its batch coordinate is `b`. -/
theorem resultIdx_iff (u : S524288x256.Idx) (idx : IVec S524288x1 32) (j : Fin 16384) (b : Fin 256) :
    D.resultIdx? u idx = some (ix2 j b) ↔ (idx (ix2 (u 0) 0)).toInt = (j.val : ℤ) ∧ u 1 = b := by
  unfold ScatterDims.resultIdx?
  constructor
  · intro h
    split at h
    · rename_i hall
      have e := Option.some.inj h
      have e0 := congrArg (fun y => (y 0).val) e
      have e1 := congrArg (fun y => (y 1).val) e
      have h0 := hall 0
      dsimp only at e0 e1
      rw [start0, window0] at e0 h0
      rw [start1, window1] at e1
      have hj : ((ix2 j b : S16384x256.Idx) 0).val = j.val := rfl
      have hb : ((ix2 j b : S16384x256.Idx) 1).val = b.val := rfl
      have hs : (S16384x256.size 0 : ℕ) = 16384 := rfl
      rw [hj] at e0; rw [hb] at e1; rw [hs] at h0
      exact ⟨by omega, Fin.ext (by omega)⟩
    · exact absurd h (by simp)
  · rintro ⟨h0, h1⟩
    have hall : ∀ a, 0 ≤ D.start u idx a + ↑(D.window u a) ∧ D.start u idx a + ↑(D.window u a) < ↑(S16384x256.size a) := by
      intro a
      fin_cases a
      · show 0 ≤ D.start u idx 0 + ↑(D.window u 0) ∧ D.start u idx 0 + ↑(D.window u 0) < ((16384 : ℕ) : ℤ)
        rw [start0, window0, h0]
        have := j.isLt
        omega
      · show 0 ≤ D.start u idx 1 + ↑(D.window u 1) ∧ D.start u idx 1 + ↑(D.window u 1) < ((256 : ℕ) : ℤ)
        rw [start1, window1]
        have : (u 1).val < 256 := (u 1).isLt
        omega
    rw [dif_pos hall]
    congr 1
    funext a
    apply Fin.ext
    fin_cases a
    · show (D.start u idx 0 + ↑(D.window u 0)).toNat = j.val
      rw [start0, window0, h0]
      omega
    · show (D.start u idx 1 + ↑(D.window u 1)).toNat = b.val
      rw [start1, window1, ← h1]
      omega

theorem resultIdx_iff' (i : Fin 524288) (b' : Fin 256) (idx : IVec S524288x1 32) (j : Fin 16384) (b : Fin 256) :
    D.resultIdx? (ix2 i b') idx = some (ix2 j b) ↔ (idx (ix2 i 0)).toInt = (j.val : ℤ) ∧ b' = b :=
  resultIdx_iff (ix2 i b') idx j b

/-- THE SCATTER-ADD AT AN ENTRY: the operand there plus the updates `(i, b)` of the features `i` whose word read
    signed is `j`. -/
theorem scatterAdd_apply (x : S16384x256.Idx → EReal) (idx : IVec S524288x1 32) (upd : S524288x256.Idx → EReal) (j : Fin 16384) (b : Fin 256) :
    Ideal.hostScatterAdd D x idx upd (ix2 j b)
      = x (ix2 j b) + ∑ i : Fin 524288, if (idx (ix2 i 0)).toInt = (j.val : ℤ) then upd (ix2 i b) else 0 := by
  show x (ix2 j b) + ∑ u ∈ Finset.univ.filter (fun u => D.resultIdx? u idx = some (ix2 j b)), upd u = _
  refine congrArg (x (ix2 j b) + ·) ?_
  rw [Finset.sum_filter, sum_idx2]
  refine Finset.sum_congr rfl fun i _ => ?_
  simp only [resultIdx_iff']
  by_cases h : (idx (ix2 i 0)).toInt = (j.val : ℤ)
  · simp [h]
  · simp [h]

/-! ## The reference's result is the hashed sum -/

theorem idx7 (b : Fin 256) (j : Fin 16384) : Read.idx_main_v7 (ix2 b j) = ix2 j b :=
  funext fun a => Fin.ext (by match a with | ⟨0, _⟩ => rfl | ⟨1, _⟩ => rfl)
theorem idx5 (i : Fin 524288) : Read.idx_main_v5 (ix2 i 0) = ix1 i :=
  funext fun a => Fin.ext (by match a with | ⟨0, _⟩ => rfl)
theorem idx3 (i : Fin 524288) (b : Fin 256) : Read.idx_main_v3 (ix2 i b) = ix2 b i :=
  funext fun a => Fin.ext (by match a with | ⟨0, _⟩ => rfl | ⟨1, _⟩ => rfl)
theorem idx1 (b : Fin 256) (i : Fin 524288) : Read.idx_main_v0 (Read.idx_main_v1 (ix2 b i)) = ix1 i :=
  funext fun a => Fin.ext (by match a with | ⟨0, _⟩ => rfl)

/-- The reference's result array, as a function of its three arguments, is the hashed sum. -/
theorem ref_eq (x0 : (⟨S256x524288, .f32⟩ : BufTy).Contents (Elt Ideal)) (x1 : (⟨S524288, .f32⟩ : BufTy).Contents (Elt Ideal))
    (x2 : (⟨S524288, .i32⟩ : BufTy).Contents (Elt Ideal)) :
    Read.val_main_v7 (F := Ideal) x0 x1 x2 = hashed x0 x1 x2 := by
  funext y
  obtain ⟨b, j, rfl⟩ : ∃ (b : Fin 256) (j : Fin 16384), y = ix2 b j := ⟨y 0, y 1, eq_ix2 y⟩
  rw [Read.val_main_v7_apply, idx7]
  show Ideal.hostScatterAdd D (Read.val_main_v4 (F := Ideal)) (Read.val_main_v5 (F := Ideal) x2) (Read.val_main_v3 (F := Ideal) x0 x1) (ix2 j b) = _
  rw [scatterAdd_apply, Read.val_main_v4_apply, Read.val_main_cst_apply]
  show Ideal.ofBits .f32 0x00000000#32 + _ = _
  rw [Ideal.ofBits_zero_f32, zero_add]
  unfold hashed
  rw [G_apply]
  refine Finset.sum_congr rfl fun i _ => ?_
  rw [Read.val_main_v5_apply, idx5, Read.val_main_v3_apply, idx3, Read.val_main_v2_apply, Read.val_main_v1_apply,
    Read.val_main_v0_apply, idx1, mul_hit]
  have hj : j.val < 16384 := j.isLt
  exact if_congr (toInt_eq_iff _ _ hj) rfl rfl

end Cert.ReferenceIdeal.RefValue

end
-- ==== Proof.lean ====
/-
  Feature hashing: `out[b, j] = ∑ i, x[b, i] · signs[i] · [mask[i] = j]` over 524288 features, 16384 bins, 256 rows.

  The kernel scales the features by their signs once, then walks a grid of 8 bin tiles × 128 feature chunks; at each
  point it builds, for each half of the chunk, the one-hot matrix "feature r's bin word is bin 2048·o + q's word" and adds
  the product of the scaled features with it into the bin tile's block, which is reset at chunk 0 and written back
  after chunk 127. The reference scatter-adds the scaled features' rows into the rows their bin words name.

  On the extended reals both are the one sum above. A product with a one-hot entry keeps the factor or is zero
  (`a · 1 = a`, `a · 0 = 0` at every extended real), so the kernel's matrix products add exactly the features of the bin;
  sums over the extended reals commute and associate, so cutting the features into 128 chunks of two halves changes
  nothing (the chunk law, Proof/HashSum.lean, used in an induction over the grid points, Proof/KernelValue.lean). A
  scatter-add leaves at an entry the sum of the updates landing there, and an update lands at bin `j` exactly when its
  word read signed is `j` (Proof/RefValue.lean): for a bin number that is to be `j`'s word, the kernel's comparison.
  Words naming no bin match no column and land nowhere: both sides drop them. Neither side needs the inputs finite.
-/
import proofs.«405314_j74801150427836_3_alg».proof.Defs
import proofs.«405314_j74801150427836_3_alg».proof.Proof.Gen.Kernel
import proofs.«405314_j74801150427836_3_alg».proof.Proof.Gen.Kernel.Skeleton
import proofs.«405314_j74801150427836_3_alg».proof.Proof.Gen.Kernel.Launch
import proofs.«405314_j74801150427836_3_alg».proof.Proof.Gen.Kernel.Points
import proofs.«405314_j74801150427836_3_alg».proof.Proof.Gen.Kernel.Frame
import proofs.«405314_j74801150427836_3_alg».proof.Proof.Gen.KernelIdeal
import proofs.«405314_j74801150427836_3_alg».proof.Proof.Gen.KernelIdeal.Skeleton
import proofs.«405314_j74801150427836_3_alg».proof.Proof.Gen.KernelIdeal.Launch
import proofs.«405314_j74801150427836_3_alg».proof.Proof.Gen.KernelIdeal.Points
import proofs.«405314_j74801150427836_3_alg».proof.Proof.Gen.KernelIdeal.Frame
import proofs.«405314_j74801150427836_3_alg».proof.Proof.Gen.ReferenceIdeal
import proofs.«405314_j74801150427836_3_alg».proof.Proof.Gen.Pre_finite_inputs
import proofs.«405314_j74801150427836_3_alg».proof.Proof.Gen.KernelIdeal.Value
import proofs.«405314_j74801150427836_3_alg».proof.Proof.Gen.ReferenceIdeal.Run
import proofs.«405314_j74801150427836_3_alg».proof.Proof.Gen.ReferenceIdeal.Read
import proofs.«405314_j74801150427836_3_alg».proof.Proof.HashSum
import proofs.«405314_j74801150427836_3_alg».proof.Proof.BodyValue
import proofs.«405314_j74801150427836_3_alg».proof.Proof.KernelValue
import proofs.«405314_j74801150427836_3_alg».proof.Proof.RefValue
import Idealize.ShloMosaic.Adequacy
import Idealize.ShloMosaic.Init

noncomputable section

namespace Cert.Proof

open Idealize.ShloMosaic Idealize.SL.Sem

/-- The kernel as printed runs and keeps its arguments. -/
theorem frame_k : Cert.frame_Kernel := fun m ρ _ => Cert.Kernel.Gen.frame m ρ

/-- So does its reading on the extended reals. -/
theorem frame_ki : Cert.frame_KernelIdeal := fun m ρ _ => Cert.KernelIdeal.Gen.frame m ρ

/-- The reference is nine host operations: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten to read the kernel on the extended reals. -/
theorem preserves : Cert.preserves_Kernel_KernelIdeal := trivial

/-- Both programs end with the hashed sum of arguments that agree. -/
theorem algebraic : Cert.algebraic_KernelIdeal_ReferenceIdeal := by
  intro m ρ m' ρ' _ hagree
  refine ⟨fun c => Cert.HashSum.hashed
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefValue.ref_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
